-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048 : Shape := ⟨1, ![2048]⟩
abbrev S1024x256 : Shape := ⟨2, ![1024, 256]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S2048x1024 .f32) (main_arg1 : IVec S2048 32) (main_arg2 : FVec F S1024x256 .f32) (main_arg3 : FVec F S1024x256 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x256 .f32 := Host.absf main_arg2
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024x256 .f32 := Host.absf main_arg3
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  main_v13
-- ==== Kernel.lean ====
abbrev S2048x1024 : Shape := ⟨2, ![2048, 1024]⟩
abbrev S2048 : Shape := ⟨1, ![2048]⟩
abbrev S1024x256 : Shape := ⟨2, ![1024, 256]⟩
abbrev S2048x256 : Shape := ⟨2, ![2048, 256]⟩
abbrev S512x1024 : Shape := ⟨2, ![512, 1024]⟩
abbrev S512x256 : Shape := ⟨2, ![512, 256]⟩
abbrev S2048x2048 : Shape := ⟨2, ![2048, 2048]⟩
abbrev S512x512 : Shape := ⟨2, ![512, 512]⟩
abbrev S256x512 : Shape := ⟨2, ![256, 512]⟩
abbrev S2048x1 : Shape := ⟨2, ![2048, 1]⟩
abbrev S2048x50688 : Shape := ⟨2, ![2048, 50688]⟩
abbrev S2048x512 : Shape := ⟨2, ![2048, 512]⟩
abbrev S2048x50257 : Shape := ⟨2, ![2048, 50257]⟩

abbrev nBuf : Space → Nat
  | .hbm => 10
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S1024x256, .f32⟩
  | .hbm, ⟨3, _⟩ => ⟨S1024x256, .f32⟩
  | .hbm, ⟨4, _⟩ => ⟨S2048x256, .bf16⟩
  | .hbm, ⟨5, _⟩ => ⟨S2048x256, .bf16⟩
  | .hbm, ⟨6, _⟩ => ⟨S2048x2048, .bf16⟩
  | .hbm, ⟨7, _⟩ => ⟨S2048x1, .i32⟩
  | .hbm, ⟨8, _⟩ => ⟨S2048x50688, .f32⟩
  | .hbm, ⟨9, _⟩ => ⟨S2048x50257, .f32⟩
  | .local _ .vmem, ⟨0, _⟩ => ⟨S512x1024, .f32⟩
  | .local _ .vmem, ⟨1, _⟩ => ⟨S512x1024, .f32⟩
  | .local _ .vmem, ⟨2, _⟩ => ⟨S1024x256, .f32⟩
  | .local _ .vmem, ⟨3, _⟩ => ⟨S1024x256, .f32⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x512, .bf16⟩
  | .local _ .vmem, ⟨13, _⟩ => ⟨S512x512, .bf16⟩
  | .local _ .vmem, ⟨14, _⟩ => ⟨S2048x2048, .bf16⟩
  | .local _ .vmem, ⟨15, _⟩ => ⟨S2048x1, .i32⟩
  | .local _ .vmem, ⟨16, _⟩ => ⟨S2048x512, .f32⟩
  | .local _ .vmem, ⟨17, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![99], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x1 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  shapeCasts_S512x256_S512x256 : S512x256.ShapeCasts S512x256
  transposes_S512x256_p1_0_S256x512 : S512x256.Transposes [1, 0] S256x512
  iota_S512x512_d0_w32 : S512x512.Iotas .tc 32 [0]
  iota_S512x512_d1_w32 : S512x512.Iotas .tc 32 [1]
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  shapeCasts_S2048_S2048x1 : S2048.ShapeCasts S2048x1
  iota_S2048x512_d1_w32 : S2048x512.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  natLt_1_32 : 1 < 32
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x512_S2048x512_0_0 : ∀ a, (![0, 0] : Fin 2 → Nat) a + S2048x512.size a ≤ S2048x512.size a
  h_S2048x512 : 0 < S2048x512.numel
  slices_S2048x50688_S2048x50257_0_0 : S2048x50688.Slices ![0, 0] S2048x50257
  dot_S512x1024_S1024x256_S512x256_1_0_0_1_n_n_wf : DotDims.WF S512x1024 S1024x256 S512x256 [1] [0] [0] [1] [] []
  dot_S512x256_S256x512_S512x512_1_0_0_1_n_n_wf : DotDims.WF S512x256 S256x512 S512x512 [1] [0] [0] [1] [] []
  dot_S2048x2048_S2048x512_S2048x512_1_0_0_1_n_n_wf : DotDims.WF S2048x2048 S2048x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S2048x256.size a
  hwx0_3 : ∀ i : grid0.Coords, EltTy.bits .bf16 = 32 ∨ (Rect.block (s := S2048x256) S512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S2048x256.size a
  hwx0_4 : ∀ i : grid0.Coords, EltTy.bits .bf16 = 32 ∨ (Rect.block (s := S2048x256) S512x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S2048x256.size a
  hwx1_0 : ∀ i : grid1.Coords, EltTy.bits .bf16 = 32 ∨ (Rect.block (s := S2048x256) S512x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S2048x256.size a
  hwx1_1 : ∀ i : grid1.Coords, EltTy.bits .bf16 = 32 ∨ (Rect.block (s := S2048x256) S512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S2048x2048.size a
  hwx1_2 : ∀ i : grid1.Coords, EltTy.bits .bf16 = 32 ∨ (Rect.block (s := S2048x2048) S512x512.size (cc1_transform_2 i) (hinb1_2 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S2048x2048.size a
  hwx2_0 : ∀ i : grid2.Coords, EltTy.bits .bf16 = 32 ∨ (Rect.block (s := S2048x2048) S2048x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S2048x1.size a
  hwx2_1 : ∀ i : grid2.Coords, EltTy.bits .i32 = 32 ∨ (Rect.block (s := S2048x1) S2048x1.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x512.size a ≤ S2048x50688.size a
  hwx2_2 : ∀ i : grid2.Coords, EltTy.bits .f32 = 32 ∨ (Rect.block (s := S2048x50688) S2048x512.size (cc2_transform_2 i) (hinb2_2 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S2048x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S2048x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2048x1024 : Shape := ⟨2, ![2048, 1024]⟩
abbrev S2048 : Shape := ⟨1, ![2048]⟩
abbrev S1024x256 : Shape := ⟨2, ![1024, 256]⟩
abbrev S2048x256 : Shape := ⟨2, ![2048, 256]⟩
abbrev S256x2048 : Shape := ⟨2, ![256, 2048]⟩
abbrev S2048x2048 : Shape := ⟨2, ![2048, 2048]⟩
abbrev S_ : Shape := ⟨0, ![]⟩
abbrev S50257x2048 : Shape := ⟨2, ![50257, 2048]⟩
abbrev S2048x1 : Shape := ⟨2, ![2048, 1]⟩
abbrev S2048x50257 : Shape := ⟨2, ![2048, 50257]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S1024x256, .f32⟩
  | .hbm, ⟨3, _⟩ => ⟨S1024x256, .f32⟩
  | .hbm, ⟨4, _⟩ => ⟨S2048x256, .f32⟩
  | .hbm, ⟨5, _⟩ => ⟨S2048x256, .f32⟩
  | .hbm, ⟨6, _⟩ => ⟨S256x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S50257x2048, .f32⟩
  | .hbm, ⟨29, _⟩ => ⟨S2048x1, .i32⟩
  | .hbm, ⟨30, _⟩ => ⟨S50257x2048, .f32⟩
  | .hbm, ⟨31, _⟩ => ⟨S2048x50257, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]

class Facts₀ : Prop where
  transposes_S2048x256_S256x2048_1_0 : S2048x256.Transposes [1, 0] S256x2048
  bcast_S_S2048x2048 : S_.BroadcastsInDim S2048x2048 (![] : Fin 0 → Fin S2048x2048.rank)
  transposes_S2048x2048_S2048x2048_1_0 : S2048x2048.Transposes [1, 0] S2048x2048
  bcast_S_S50257x2048 : S_.BroadcastsInDim S50257x2048 (![] : Fin 0 → Fin S50257x2048.rank)
  bcast_S2048_S2048x1_0 : S2048.BroadcastsInDim S2048x1 (![0] : Fin 1 → Fin S2048x1.rank)
  transposes_S50257x2048_S2048x50257_1_0 : S50257x2048.Transposes [1, 0] S2048x50257
  dot_S2048x1024_S1024x256_S2048x256_1_0_0_1_n_n_wf : DotDims.WF S2048x1024 S1024x256 S2048x256 [1] [0] [0] [1] [] []
  dot_S2048x256_S256x2048_S2048x2048_1_0_0_1_n_n_wf : DotDims.WF S2048x256 S256x2048 S2048x2048 [1] [0] [0] [1] [] []
  scatter_S50257x2048_S2048x1_S2048x2048_1_0_0_1_wf : ScatterDims.WF S50257x2048 S2048x1 S2048x2048 [1] [0] [0] 1

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf
def scatter_S50257x2048_S2048x1_S2048x2048_1_0_0_1 : ScatterDims S50257x2048 S2048x1 S2048x2048 where
  updateWindowDims := [1]
  insertedWindowDims := [0]
  scatterDimsToOperandDims := [0]
  indexVectorDim := 1
  wf := scatter_S50257x2048_S2048x1_S2048x2048_1_0_0_1_wf

class Facts : Prop extends Facts₀ where

variable [Facts]
-- ==== Proof.Spec.lean ====
/-
  The mathematics both programs compute, as whole-array functions over the extended reals, index by index.

  With x a 2048 × 1024 array, Wq and Wk 1024 × 256 arrays and idx a list of 2048 32-bit words:
    q = x · Wq,  k = x · Wk                      (`rowsTimesCols`: entry (r, c) is Σ_j x[r, j] · W[j, c]),
    c[r, s] = (Σ_h q[r, h] · k[s, h]) · 2⁻⁸  where s ≤ r, and 0 above the diagonal   (`causalScores`),
    out[t, v] = Σ_s (c[t, s] if idx[s] is the word of v, else 0)                         (`columnSumsByToken`):
  column s of the causal scores is added into the output column its token names, and a token no
  output column carries adds nothing. Every sum is a finite sum in a commutative monoid, so neither
  its order nor its grouping matters; no entry needs to be finite.
-/
import Idealize.ShloMosaic.PureOps.Ideal
import Idealize.ShloMosaic.Lib.ValueIdx

noncomputable section

namespace Cert.HeadQK

open Idealize.ShloMosaic Idealize.ShloMosaic.ValueIdx

/-- The matrix product read at an entry: row `j 0` of `x` against column `j 1` of `w`. -/
def rowsTimesCols {M K N : Nat} (x : (⟨2, ![M, K]⟩ : Shape).Idx → EReal) (w : (⟨2, ![K, N]⟩ : Shape).Idx → EReal) :
    (⟨2, ![M, N]⟩ : Shape).Idx → EReal :=
  fun j => ∑ a : Fin K, x (ix2 (j 0) a) * w (ix2 a (j 1))

/-- The scale 2⁻⁸ = 1/256 as both programs spell it: the f32 word 0x3B800000, never evaluated. -/
abbrev scale : EReal := Ideal.ofBits .f32 0x3B800000#32

/-- Scaled dot products of the rows of `q` with the rows of `k`, kept on and below the diagonal. -/
def causalScores {T H : Nat} (q k : (⟨2, ![T, H]⟩ : Shape).Idx → EReal) : (⟨2, ![T, T]⟩ : Shape).Idx → EReal :=
  fun j => if (j 1).val ≤ (j 0).val then (∑ h : Fin H, q (ix2 (j 0) h) * k (ix2 (j 1) h)) * scale else 0

/-- Column `v` of the result: the sum of the columns `s` of `c` whose token `idx s` is the word of `v`. -/
def columnSumsByToken {T V : Nat} (c : (⟨2, ![T, T]⟩ : Shape).Idx → EReal) (idx : Fin T → BitVec 32) :
    (⟨2, ![T, V]⟩ : Shape).Idx → EReal :=
  fun j => ∑ s : Fin T, if idx s = BitVec.ofNat 32 (j 1).val then c (ix2 (j 0) s) else 0

/-- The whole computation: the result array as one function of the three float arguments and the tokens. -/
def headQK (x : (⟨2, ![2048, 1024]⟩ : Shape).Idx → EReal) (wq wk : (⟨2, ![1024, 256]⟩ : Shape).Idx → EReal)
    (idx : Fin 2048 → BitVec 32) : (⟨2, ![2048, 50257]⟩ : Shape).Idx → EReal :=
  columnSumsByToken (causalScores (rowsTimesCols x wq) (rowsTimesCols x wk)) idx

end Cert.HeadQK

end
-- ==== Proof.Region0.lean ====
/-
  The first kernel region, at the ideal values: the projections q = x · Wq and k = x · Wk, as whole arrays.

  The grid has four points; point t stages rows 512·t … 512·t + 511 of x and the whole of Wq and Wk, and writes back
  the same rows of q and of k. The body's stored value is the product of the staged row block with the staged weight
  (a change of float format is the identity here, and a product accumulated into a zero splat is the plain sum over the
  contracted coordinate), so what point t writes back is block t of the whole product; the four blocks tile the 2048
  rows, so after the region each output array IS the whole product of the region-entry contents of x and the weight.
-/
import proofs.«422247_j71940702208377_1_alg».proof.Proof.KernelIdealFrame
import proofs.«422247_j71940702208377_1_alg».proof.Proof.Spec
import Idealize.ShloMosaic.Lib.Pipeline.Value
import Idealize.ShloMosaic.Lib.StackMember
import Idealize.ShloMosaic.Lib.KernelVsHost

noncomputable section

namespace Cert.KernelIdeal.Val

open Cert.KernelIdeal Cert.KernelIdeal.Gen Cert.KernelIdeal.GenP Idealize.ShloMosaic Idealize.ShloMosaic.TcCoe Idealize.SL.Sem
open Idealize.ShloMosaic.ValueIdx Cert.HeadQK
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- A block of a product: if the block `xb` holds the rows of `X` that the output row of `i` names and `wb` the
    columns of `W` that its column names, the blocks' product at `y` is the whole product at `i`. -/
theorem rowsTimesCols_block {M K N Mb Nb : Nat} (X : (⟨2, ![M, K]⟩ : Shape).Idx → EReal) (W : (⟨2, ![K, N]⟩ : Shape).Idx → EReal)
    (xb : (⟨2, ![Mb, K]⟩ : Shape).Idx → EReal) (wb : (⟨2, ![K, Nb]⟩ : Shape).Idx → EReal)
    (y : (⟨2, ![Mb, Nb]⟩ : Shape).Idx) (i : (⟨2, ![M, N]⟩ : Shape).Idx)
    (hx : ∀ a : Fin K, xb (ix2 (y 0) a) = X (ix2 (i 0) a)) (hw : ∀ a : Fin K, wb (ix2 a (y 1)) = W (ix2 a (i 1))) :
    rowsTimesCols xb wb y = rowsTimesCols X W i :=
  Finset.sum_congr rfl fun a _ => by rw [hx a, hw a]

/-- The value stored into the q window: the staged rows of x times the staged Wq. -/
theorem stored_q (x : Vec Ideal S512x1024 .f32) (w : Vec Ideal S1024x256 .f32) :
    k0_pay2 (F := Ideal) x w = rowsTimesCols (M := 512) (K := 1024) (N := 256) x w := by
  funext j
  obtain ⟨r, c, rfl⟩ : ∃ (r : Fin 512) (c : Fin 256), j = ix2 r c := ⟨j 0, j 1, eq_ix2 j⟩
  simp only [k0_pay2, k0_pay1]
  rw [matmul_zero_eq_dotGeneral]
  exact StackMember.dotGeneral_plain_apply none _ _ r c

/-- The value stored into the k window: the staged rows of x times the staged Wk. -/
theorem stored_k (x : Vec Ideal S512x1024 .f32) (w : Vec Ideal S1024x256 .f32) :
    k0_pay3 (F := Ideal) x w = rowsTimesCols (M := 512) (K := 1024) (N := 256) x w := by
  funext j
  obtain ⟨r, c, rfl⟩ : ∃ (r : Fin 512) (c : Fin 256), j = ix2 r c := ⟨j 0, j 1, eq_ix2 j⟩
  simp only [k0_pay3, k0_pay1]
  rw [matmul_zero_eq_dotGeneral]
  exact StackMember.dotGeneral_plain_apply none _ _ r c

/-- The block indices over the four points: x and both outputs move down the rows with the point, the weights stay. -/
theorem blockIndices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point `t` writes back to q is block `t` of x · Wq. -/
theorem flushed_q (c : Dev nD) (t : Fin cfg0.N) :
    (dat0 V c).flushed 3 t = ((cfg0.win 3).blk t).view.read (Elt Ideal)
      (rowsTimesCols (M := 2048) (K := 1024) (N := 256) (V c main_arg0) (V c main_arg2)) := by
  show (cfg0.win 3).cut (grid0.coords t) ((dat0 V c).after 3 t) = _
  rw [after0_3]
  unfold out0_3
  rw [View.canon_unit_zero offsets_zero]
  simp only [View.ld_unit_zero (S := S512x1024) offsets_zero, View.ld_unit_zero (S := S1024x256) offsets_zero]
  rw [stored_q]
  obtain ⟨e00, e01, e10, e11, e20, e21, e30, e31, e40, e41⟩ := blockIndices0 t
  funext j
  show rowsTimesCols (M := 512) (K := 1024) (N := 256) (iblk0 V c 0 t) (iblk0 V c 1 t) j
    = rowsTimesCols (M := 2048) (K := 1024) (N := 256) (V c main_arg0) (V c main_arg2) (((cfg0.win 3).blk t).view.emb j)
  refine rowsTimesCols_block _ _ _ _ j _ (fun a => ?_) (fun a => ?_)
  · show V c main_arg0 (((cfg0.win 0).blk t).view.emb (ix2 (j 0) a)) = _
    refine congrArg (V c main_arg0) (funext fun b => Fin.ext ?_)
    match b with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * a.val = a.val; omega
  · show V c main_arg2 (((cfg0.win 1).blk t).view.emb (ix2 a (j 1))) = _
    refine congrArg (V c main_arg2) (funext fun b => Fin.ext ?_)
    match b with
    | ⟨0, _⟩ => show win0_1.index t (0 : Fin 2) * 1024 + 1 * a.val = a.val; omega
    | ⟨1, _⟩ => show win0_1.index t (1 : Fin 2) * 256 + 1 * (j 1).val = win0_3.index t (1 : Fin 2) * 256 + 1 * (j 1).val; omega

/-- What point `t` writes back to k is block `t` of x · Wk. -/
theorem flushed_k (c : Dev nD) (t : Fin cfg0.N) :
    (dat0 V c).flushed 4 t = ((cfg0.win 4).blk t).view.read (Elt Ideal)
      (rowsTimesCols (M := 2048) (K := 1024) (N := 256) (V c main_arg0) (V c main_arg3)) := by
  show (cfg0.win 4).cut (grid0.coords t) ((dat0 V c).after 4 t) = _
  rw [after0_4]
  unfold out0_4
  rw [View.canon_unit_zero offsets_zero]
  simp only [View.ld_unit_zero (S := S512x1024) offsets_zero, View.ld_unit_zero (S := S1024x256) offsets_zero]
  rw [stored_k]
  obtain ⟨e00, e01, e10, e11, e20, e21, e30, e31, e40, e41⟩ := blockIndices0 t
  funext j
  show rowsTimesCols (M := 512) (K := 1024) (N := 256) (iblk0 V c 0 t) (iblk0 V c 2 t) j
    = rowsTimesCols (M := 2048) (K := 1024) (N := 256) (V c main_arg0) (V c main_arg3) (((cfg0.win 4).blk t).view.emb j)
  refine rowsTimesCols_block _ _ _ _ j _ (fun a => ?_) (fun a => ?_)
  · show V c main_arg0 (((cfg0.win 0).blk t).view.emb (ix2 (j 0) a)) = _
    refine congrArg (V c main_arg0) (funext fun b => Fin.ext ?_)
    match b with
    | ⟨0, _⟩ => show win0_0.index t (0 : Fin 2) * 512 + 1 * (j 0).val = win0_4.index t (0 : Fin 2) * 512 + 1 * (j 0).val; omega
    | ⟨1, _⟩ => show win0_0.index t (1 : Fin 2) * 1024 + 1 * a.val = a.val; omega
  · show V c main_arg3 (((cfg0.win 2).blk t).view.emb (ix2 a (j 1))) = _
    refine congrArg (V c main_arg3) (funext fun b => Fin.ext ?_)
    match b with
    | ⟨0, _⟩ => show win0_2.index t (0 : Fin 2) * 1024 + 1 * a.val = a.val; omega
    | ⟨1, _⟩ => show win0_2.index t (1 : Fin 2) * 256 + 1 * (j 1).val = win0_4.index t (1 : Fin 2) * 256 + 1 * (j 1).val; omega

/-- An index of q is in point `t`'s block iff each coordinate is in the block's range. -/
theorem mem_block_q (t : Fin cfg0.N) (i : S2048x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v0_0).slice (win0_3.rect t)).set ↔ _
  rw [View.set_slice_whole, Rect.mem_set_unit]
  exact Iff.rfl

theorem mem_block_k (t : Fin cfg0.N) (i : S2048x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v0_1).slice (win0_4.rect t)).set ↔ _
  rw [View.set_slice_whole, Rect.mem_set_unit]
  exact Iff.rfl

/-- Row r of q lies in the block of point r / 512. -/
theorem cover_q (i : S2048x256.Idx) : ∃ t : Fin cfg0.N, (cfg0.win 3).flush t = true ∧ i ∈ ((cfg0.win 3).blk t).view.set := by
  have hi0 : (i 0).val < 2048 := (i 0).isLt
  have hi1 : (i 1).val < 256 := (i 1).isLt
  refine ⟨⟨(i 0).val / 512, by show (i 0).val / 512 < 4; omega⟩, flush0_3 _, ?_⟩
  rw [mem_block_q]
  obtain ⟨e00, e01, e10, e11, e20, e21, e30, e31, e40, e41⟩ := blockIndices0 ⟨(i 0).val / 512, by show (i 0).val / 512 < 4; omega⟩
  intro a
  match a with
  | ⟨0, _⟩ => show win0_3.index _ (0 : Fin 2) * 512 ≤ (i 0).val ∧ (i 0).val < win0_3.index _ (0 : Fin 2) * 512 + 512; rw [e30]; show (i 0).val / 512 * 512 ≤ _ ∧ _ < (i 0).val / 512 * 512 + 512; omega
  | ⟨1, _⟩ => show win0_3.index _ (1 : Fin 2) * 256 ≤ (i 1).val ∧ (i 1).val < win0_3.index _ (1 : Fin 2) * 256 + 256; rw [e31]; omega

theorem cover_k (i : S2048x256.Idx) : ∃ t : Fin cfg0.N, (cfg0.win 4).flush t = true ∧ i ∈ ((cfg0.win 4).blk t).view.set := by
  have hi0 : (i 0).val < 2048 := (i 0).isLt
  have hi1 : (i 1).val < 256 := (i 1).isLt
  refine ⟨⟨(i 0).val / 512, by show (i 0).val / 512 < 4; omega⟩, flush0_4 _, ?_⟩
  rw [mem_block_k]
  obtain ⟨e00, e01, e10, e11, e20, e21, e30, e31, e40, e41⟩ := blockIndices0 ⟨(i 0).val / 512, by show (i 0).val / 512 < 4; omega⟩
  intro a
  match a with
  | ⟨0, _⟩ => show win0_4.index _ (0 : Fin 2) * 512 ≤ (i 0).val ∧ (i 0).val < win0_4.index _ (0 : Fin 2) * 512 + 512; rw [e40]; show (i 0).val / 512 * 512 ≤ _ ∧ _ < (i 0).val / 512 * 512 + 512; omega
  | ⟨1, _⟩ => show win0_4.index _ (1 : Fin 2) * 256 ≤ (i 1).val ∧ (i 1).val < win0_4.index _ (1 : Fin 2) * 256 + 256; rw [e41]; omega

/-- AFTER THE REGION the q array is x · Wq of the entry contents … -/
theorem final_q (c : Dev nD) : (dat0 V c).arrAt 3 cfg0.N
    = rowsTimesCols (M := 2048) (K := 1024) (N := 256) (V c main_arg0) (V c main_arg2) :=
  (dat0 V c).arrAt_eq_of_cover 3 _ (fun t _ => flushed_q V c t) cover_q

/-- … and the k array is x · Wk. -/
theorem final_k (c : Dev nD) : (dat0 V c).arrAt 4 cfg0.N
    = rowsTimesCols (M := 2048) (K := 1024) (N := 256) (V c main_arg0) (V c main_arg3) :=
  (dat0 V c).arrAt_eq_of_cover 4 _ (fun t _ => flushed_k V c t) cover_k

end Cert.KernelIdeal.Val

end
-- ==== Proof.Words.lean ====
/-
  Facts about 32-bit words that the two programs' masks rest on. A number below 2³¹ is its own word read signed;
  so a signed comparison of two such words is the comparison of the numbers, a word read signed equals such a
  number exactly when it is that number's word, and "tile number times tile width plus offset", computed in words,
  is the word of the number computed in ℕ. A one-bit condition widened to a word and converted to a float is the
  real number 1 or 0.
-/
import Idealize.ShloMosaic.PureOps.Ideal
import Idealize.ShloMosaic.Lib.KernelVsHost

noncomputable section

namespace Cert.HeadQK

open Idealize.ShloMosaic

/-- A number below 2³¹, as a 32-bit word read signed, is itself. -/
theorem toInt_ofNat_small (a : Nat) (ha : a < 2 ^ 31) : (BitVec.ofNat 32 a).toInt = (a : Int) := by
  rw [BitVec.toInt_eq_toNat_cond, BitVec.toNat_ofNat]
  have : a % 2 ^ 32 = a := Nat.mod_eq_of_lt (by omega)
  rw [this, if_pos (by omega)]

/-- A word read signed is the number `v` < 2³¹ exactly when it is `v`'s word. -/
theorem toInt_eq_natCast_iff (w : BitVec 32) (v : Nat) (hv : v < 2 ^ 31) : w.toInt = (v : Int) ↔ w = BitVec.ofNat 32 v := by
  have hw : w.toNat < 2 ^ 32 := w.isLt
  rw [BitVec.toInt_eq_toNat_cond]
  constructor
  · intro h
    apply BitVec.eq_of_toNat_eq
    rw [BitVec.toNat_ofNat]
    split at h <;> omega
  · intro h
    have : w.toNat = v := by rw [h, BitVec.toNat_ofNat]; omega
    rw [if_pos (by omega)]; omega

/-- The signed "greater or equal" of the words of two numbers below 2³¹ is the numbers' order. -/
theorem cmpi_sge_ofNat (a b : Nat) (ha : a < 2 ^ 31) (hb : b < 2 ^ 31) :
    IntOp.cmpi .sge (BitVec.ofNat 32 a) (BitVec.ofNat 32 b) = if b ≤ a then 1#1 else 0#1 := by
  show BitVec.ofBool ((BitVec.ofNat 32 b).sle (BitVec.ofNat 32 a)) = _
  rw [BitVec.sle, toInt_ofNat_small a ha, toInt_ofNat_small b hb]
  by_cases h : b ≤ a
  · rw [if_pos h, decide_eq_true (by exact_mod_cast h)]; rfl
  · rw [if_neg h, decide_eq_false (by exact_mod_cast h)]; rfl

/-- Equality of words, as the one-bit condition the compare writes. -/
theorem cmpi_eq (x y : BitVec 32) : IntOp.cmpi .eq x y = if x = y then 1#1 else 0#1 := by
  show BitVec.ofBool (x == y) = _
  by_cases h : x = y
  · subst h; rw [if_pos rfl, beq_self_eq_true]; rfl
  · rw [if_neg h, beq_eq_false_iff_ne.2 h]; rfl

/-- Tile number `i` times the tile width `n` plus an offset `r`, computed in 32-bit words, is the word of that number. -/
theorem tileOffset_word (i n r : Nat) :
    IntOp.addi (Scalar.muli (BitVec.ofNat 32 i) (BitVec.ofNat 32 n)) (BitVec.ofNat 32 r) = BitVec.ofNat 32 (i * n + r) := by
  show BitVec.ofNat 32 i * BitVec.ofNat 32 n + BitVec.ofNat 32 r = _
  apply BitVec.eq_of_toNat_eq
  simp only [BitVec.toNat_add, BitVec.toNat_mul, BitVec.toNat_ofNat]
  simp [Nat.add_mod, Nat.mul_mod]

/-- A one-bit condition widened to a word and converted to a float, at the ideal values: 1 where it holds, 0 where not. -/
theorem sitofp_bit (p : Prop) [Decidable p] :
    (FloatOps.sitofp .f32 ((if p then 1#1 else 0#1 : BitVec 1).setWidth 32) : Ideal .f32) = if p then 1 else 0 := by
  show (((((if p then 1#1 else 0#1 : BitVec 1).setWidth 32).toInt : ℝ)) : EReal) = _
  rw [toInt_setWidth_bit]
  by_cases h : p
  · rw [if_pos h, if_pos h]; simp
  · rw [if_neg h, if_neg h]; simp

end Cert.HeadQK

end
-- ==== Proof.Region1.lean ====
/-
  The second kernel region, at the ideal values: the causal scores c, as a whole array.

  The grid is 4 × 4; point (a, b) stages rows 512·a … of q and rows 512·b … of k and writes back block (a, b) of the
  2048 × 2048 score array. The body multiplies the staged q block by the transpose of the staged k block — entry (p, s)
  sums q[p, h] · k[s, h] over h —, scales by the word of 2⁻⁸, and keeps the entry where the global row number
  512·a + p is at least the global column number 512·b + s, writing zero elsewhere. The two numbers are computed in
  32-bit words and compared signed; both are below 2048, so the comparison is the comparison of the numbers, and it
  is the comparison of the array coordinates of the entry. So what point (a, b) writes back is block (a, b) of
  `causalScores q k`; the sixteen blocks tile the array.
-/
import proofs.«422247_j71940702208377_1_alg».proof.Proof.KernelIdealFrame
import proofs.«422247_j71940702208377_1_alg».proof.Proof.Spec
import proofs.«422247_j71940702208377_1_alg».proof.Proof.Words
import Idealize.ShloMosaic.Lib.Pipeline.Value
import Idealize.ShloMosaic.Lib.StackMember
import Idealize.ShloMosaic.Lib.KernelVsHost

noncomputable section

namespace Cert.KernelIdeal.Val

open Cert.KernelIdeal Cert.KernelIdeal.Gen Cert.KernelIdeal.GenP Idealize.ShloMosaic Idealize.ShloMosaic.TcCoe Idealize.SL.Sem
open Idealize.ShloMosaic.ValueIdx Cert.HeadQK
open Idealize.ShloMosaic.Pipeline (Dat)

variable (V : (c : Dev nD) → (b : Ref sig .tc) → Buf (Elt Ideal) ((c : Thread nD τ).loc b))

theorem offsets_zero1 : (![0, 0] : Fin 2 → Nat) = fun _ => 0 := funext fun a => by fin_cases a <;> rfl

/-- The value stored at entry (p, s) of the block of tile (a, b) = `i`. -/
theorem stored_scores_at (i : grid1.Coords) (qb kb : Vec Ideal S512x256 .bf16) (p q' : Fin 512) :
    k1_pay1 (F := Ideal) i qb kb (ix2 p q')
      = if (i 1).val * 512 + q'.val ≤ (i 0).val * 512 + p.val then (∑ h : Fin 256, qb (ix2 p h) * kb (ix2 q' h)) * scale else 0 := by
  simp only [k1_pay1]
  rw [matmul_zero_eq_dotGeneral, shapeCast_self, shapeCast_self]
  show Scalar.select (IntOp.cmpi .sge (IntOp.addi (Scalar.muli (BitVec.ofNat 32 (i 0).val) (BitVec.ofNat 32 512)) (BitVec.ofNat 32 (0 * 512 + p.val)))
        (IntOp.addi (Scalar.muli (BitVec.ofNat 32 (i 1).val) (BitVec.ofNat 32 512)) (BitVec.ofNat 32 (0 * 512 + q'.val))))
      (Host.dotGeneral (F := Ideal) (DotDims.plain 512 256 512) none qb (transpose S256x512 [1, 0] kb transposes_S512x256_p1_0_S256x512) (ix2 p q') * scale)
      (Ideal.ofBits .f32 0x00000000#32) = _
  rw [tileOffset_word, tileOffset_word, Nat.zero_mul, Nat.zero_add, Nat.zero_add]
  have hi0 : (i 0).val < 4 := (i 0).isLt
  have hi1 : (i 1).val < 4 := (i 1).isLt
  have hp : p.val < 512 := p.isLt
  have hq : q'.val < 512 := q'.isLt
  rw [cmpi_sge_ofNat _ _ (by omega) (by omega), StackMember.dotGeneral_plain_apply]
  have hT : ∀ h : Fin 256, transpose S256x512 [1, 0] kb transposes_S512x256_p1_0_S256x512 (ix2 h q') = kb (ix2 q' h) := fun h =>
    transpose_apply [1, 0] kb transposes_S512x256_p1_0_S256x512 (ix2 h q') (ix2 q' h) (fun b => match b with
      | ⟨0, _⟩ => rfl
      | ⟨1, _⟩ => rfl)
  simp only [hT]
  by_cases hc : (i 1).val * 512 + q'.val ≤ (i 0).val * 512 + p.val
  · rw [if_pos hc, if_pos hc, select_one]
  · rw [if_neg hc, if_neg hc, select_zero, Ideal.ofBits_zero_f32]

/-- The same at any index of the block. -/
theorem stored_scores (i : grid1.Coords) (qb kb : Vec Ideal S512x256 .bf16) (j : S512x512.Idx) :
    k1_pay1 (F := Ideal) i qb kb j
      = if (i 1).val * 512 + (j 1).val ≤ (i 0).val * 512 + (j 0).val then (∑ h : Fin 256, qb (ix2 (j 0) h) * kb (ix2 (j 1) h)) * scale else 0 := by
  obtain ⟨p, q', rfl⟩ : ∃ (p q' : Fin 512), j = ix2 p q' := ⟨j 0, j 1, eq_ix2 j⟩
  exact stored_scores_at i qb kb p q'

/-- A block of the causal scores: where the block's entry `y` of tile (a, b) is the array's entry `i` and the staged
    blocks hold the rows of q and k that `i` names, the tile's masked, scaled dot product is `causalScores` at `i`. -/
theorem causalScores_block {T H Tb : Nat} (Q K : (⟨2, ![T, H]⟩ : Shape).Idx → EReal) (qb kb : (⟨2, ![Tb, H]⟩ : Shape).Idx → EReal)
    (a b : Nat) (y : (⟨2, ![Tb, Tb]⟩ : Shape).Idx) (i : (⟨2, ![T, T]⟩ : Shape).Idx)
    (h0 : (i 0).val = a * Tb + (y 0).val) (h1 : (i 1).val = b * Tb + (y 1).val)
    (hq : ∀ h : Fin H, qb (ix2 (y 0) h) = Q (ix2 (i 0) h)) (hk : ∀ h : Fin H, kb (ix2 (y 1) h) = K (ix2 (i 1) h)) :
    (if b * Tb + (y 1).val ≤ a * Tb + (y 0).val then (∑ h : Fin H, qb (ix2 (y 0) h) * kb (ix2 (y 1) h)) * scale else 0)
      = causalScores Q K i := by
  unfold causalScores
  rw [h0, h1]
  refine if_congr Iff.rfl ?_ rfl
  exact congrArg (· * scale) (Finset.sum_congr rfl fun h _ => by rw [hq h, hk h])

/-- The block indices over the sixteen points: q follows the first grid coordinate, k the second, the scores both. -/
theorem blockIndices1 : ∀ t : Fin cfg1.N, win1_0.index t (0 : Fin 2) = (grid1.coords t 0).val ∧ win1_0.index t (1 : Fin 2) = 0
    ∧ win1_1.index t (0 : Fin 2) = (grid1.coords t 1).val ∧ win1_1.index t (1 : Fin 2) = 0
    ∧ win1_2.index t (0 : Fin 2) = (grid1.coords t 0).val ∧ win1_2.index t (1 : Fin 2) = (grid1.coords t 1).val :=
  (by decide +kernel : ∀ t : Fin grid1.N, _)

/-- Every tile (a, b) is some point's. -/
theorem tiles_onto1 : ∀ (a b : Fin 4), ∃ t : Fin cfg1.N, win1_2.index t (0 : Fin 2) = a.val ∧ win1_2.index t (1 : Fin 2) = b.val :=
  (by decide +kernel : ∀ (a b : Fin 4), ∃ t : Fin grid1.N, win1_2.index t (0 : Fin 2) = a.val ∧ win1_2.index t (1 : Fin 2) = b.val)

/-- What point `t` writes back is block `t` of the causal scores of the region-entry q and k. -/
theorem flushed_scores (c : Dev nD) (t : Fin cfg1.N) :
    (dat1 V c).flushed 2 t = ((cfg1.win 2).blk t).view.read (Elt Ideal)
      (causalScores (T := 2048) (H := 256) (V c main_v0_0) (V c main_v0_1)) := by
  show (cfg1.win 2).cut (grid1.coords t) ((dat1 V c).after 2 t) = _
  rw [after1_2]
  unfold out1_2
  rw [View.canon_unit_zero offsets_zero1]
  simp only [View.ld_unit_zero (S := S512x256) offsets_zero1]
  obtain ⟨e00, e01, e10, e11, e20, e21⟩ := blockIndices1 t
  funext j
  show k1_pay1 (F := Ideal) (grid1.coords t) (iblk1 V c 0 t) (iblk1 V c 1 t) j
    = causalScores (T := 2048) (H := 256) (V c main_v0_0) (V c main_v0_1) (((cfg1.win 2).blk t).view.emb j)
  rw [stored_scores]
  refine causalScores_block (T := 2048) (H := 256) (Tb := 512) _ _ _ _ _ _ j _ ?_ ?_ (fun h => ?_) (fun h => ?_)
  · show win1_2.index t (0 : Fin 2) * 512 + 1 * (j 0).val = (grid1.coords t 0).val * 512 + (j 0).val; omega
  · show win1_2.index t (1 : Fin 2) * 512 + 1 * (j 1).val = (grid1.coords t 1).val * 512 + (j 1).val; omega
  · show V c main_v0_0 (((cfg1.win 0).blk t).view.emb (ix2 (j 0) h)) = _
    refine congrArg (V c main_v0_0) (funext fun b => Fin.ext ?_)
    match b with
    | ⟨0, _⟩ => show win1_0.index t (0 : Fin 2) * 512 + 1 * (j 0).val = win1_2.index t (0 : Fin 2) * 512 + 1 * (j 0).val; omega
    | ⟨1, _⟩ => show win1_0.index t (1 : Fin 2) * 256 + 1 * h.val = h.val; omega
  · show V c main_v0_1 (((cfg1.win 1).blk t).view.emb (ix2 (j 1) h)) = _
    refine congrArg (V c main_v0_1) (funext fun b => Fin.ext ?_)
    match b with
    | ⟨0, _⟩ => show win1_1.index t (0 : Fin 2) * 512 + 1 * (j 1).val = win1_2.index t (1 : Fin 2) * 512 + 1 * (j 1).val; omega
    | ⟨1, _⟩ => show win1_1.index t (1 : Fin 2) * 256 + 1 * h.val = h.val; omega

/-- An index of the score array is in point `t`'s block iff each coordinate is in the block's range. -/
theorem mem_block_scores (t : Fin cfg1.N) (i : S2048x2048.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v1).slice (win1_2.rect t)).set ↔ _
  rw [View.set_slice_whole, Rect.mem_set_unit]
  exact Iff.rfl

/-- Entry (r, s) lies in the block of tile (r / 512, s / 512). -/
theorem cover_scores (i : S2048x2048.Idx) : ∃ t : Fin cfg1.N, (cfg1.win 2).flush t = true ∧ i ∈ ((cfg1.win 2).blk t).view.set := by
  have hi0 : (i 0).val < 2048 := (i 0).isLt
  have hi1 : (i 1).val < 2048 := (i 1).isLt
  obtain ⟨t, ht0, ht1⟩ := tiles_onto1 ⟨(i 0).val / 512, by omega⟩ ⟨(i 1).val / 512, by omega⟩
  refine ⟨t, flush1_2 t, ?_⟩
  rw [mem_block_scores]
  intro a
  match a with
  | ⟨0, _⟩ => show win1_2.index t (0 : Fin 2) * 512 ≤ (i 0).val ∧ (i 0).val < win1_2.index t (0 : Fin 2) * 512 + 512; rw [ht0]; show (i 0).val / 512 * 512 ≤ _ ∧ _ < (i 0).val / 512 * 512 + 512; omega
  | ⟨1, _⟩ => show win1_2.index t (1 : Fin 2) * 512 ≤ (i 1).val ∧ (i 1).val < win1_2.index t (1 : Fin 2) * 512 + 512; rw [ht1]; show (i 1).val / 512 * 512 ≤ _ ∧ _ < (i 1).val / 512 * 512 + 512; omega

/-- AFTER THE REGION the score array is `causalScores` of the entry contents of q and k. -/
theorem final_scores (c : Dev nD) : (dat1 V c).arrAt 2 cfg1.N
    = causalScores (T := 2048) (H := 256) (V c main_v0_0) (V c main_v0_1) :=
  (dat1 V c).arrAt_eq_of_cover 2 _ (fun t _ => flushed_scores V c t) cover_scores

end Cert.KernelIdeal.Val

end
-- ==== Proof.Region2.lean ====
/-
  The third kernel region, at the ideal values: the column sums by token, as a whole (padded) array.

  The grid has 99 points; point n stages the whole score array c and the whole token column, and writes back the
  2048 × 512 tile of output columns 512·n … 512·n + 511. The body builds, for its tile, the matrix whose entry (s, w) is
  1 where token s is the word of 512·n + w and 0 elsewhere — an equality of 32-bit words, widened to a word and
  converted to a float —, and multiplies c by it: entry (t, w) of the tile is the sum over s of c[t, s] times that 1 or
  0, which is the sum of the c[t, s] over the s whose token names column 512·n + w. The tile's column w is the array's
  column 512·n + w, so what point n writes back is tile n of `columnSumsByToken c idx` over 50688 columns; the 99
  tiles cover them all.
-/
import proofs.«422247_j71940702208377_1_alg».proof.Proof.KernelIdealFrame
import proofs.«422247_j71940702208377_1_alg».proof.Proof.Spec
import proofs.«422247_j71940702208377_1_alg».proof.Proof.Words
import Idealize.ShloMosaic.Lib.Pipeline.Value
import Idealize.ShloMosaic.Lib.StackMember
import Idealize.ShloMosaic.Lib.KernelVsHost

noncomputable section

namespace Cert.KernelIdeal.Val

open Cert.KernelIdeal Cert.KernelIdeal.Gen Cert.KernelIdeal.GenP Idealize.ShloMosaic Idealize.ShloMosaic.TcCoe Idealize.SL.Sem
open Idealize.ShloMosaic.ValueIdx Cert.HeadQK
open Idealize.ShloMosaic.Pipeline (Dat)

variable (V : (c : Dev nD) → (b : Ref sig .tc) → Buf (Elt Ideal) ((c : Thread nD τ).loc b))

theorem offsets_zero2 : (![0, 0] : Fin 2 → Nat) = fun _ => 0 := funext fun a => by fin_cases a <;> rfl

/-- The staged token column, laid along the 512 lanes of a tile, read at (s, w): token s. -/
theorem tokens_along_lanes (idxb : IVec S2048x1 32) (s : Fin 2048) (q : Fin 512) :
    broadcastTo S2048x512 idxb broadcasts_S2048x1_S2048x512 (ix2 s q) = idxb (ix2 s (0 : Fin 1)) :=
  broadcastTo_apply idxb broadcasts_S2048x1_S2048x512 (ix2 s q) (ix2 s (0 : Fin 1)) (fun a => match a with
    | ⟨0, _⟩ => by show s.val = if (2048 : Nat) = 1 then 0 else s.val; rw [if_neg (by decide)]
    | ⟨1, _⟩ => by show (0 : Nat) = if (1 : Nat) = 1 then 0 else q.val; rw [if_pos rfl])

/-- The value stored at entry (t, w) of tile `i`: the sum of c[t, s] over the s whose token is the word of the
    tile's column. A product with 1 keeps the entry, a product with 0 is 0, on every extended real. -/
theorem stored_columns_at (i : grid2.Coords) (idxb : Vec Ideal S2048x1 .i32) (cb : Vec Ideal S2048x2048 .bf16) (t : Fin 2048) (q : Fin 512) :
    k2_pay1 (F := Ideal) i idxb cb (ix2 t q)
      = ∑ s : Fin 2048, if idxb (ix2 s (0 : Fin 1)) = BitVec.ofNat 32 ((i 0).val * 512 + q.val) then cb (ix2 t s) else 0 := by
  simp only [k2_pay1]
  rw [matmul_zero_eq_dotGeneral, shapeCast_self, shapeCast_self]
  refine (StackMember.dotGeneral_plain_apply (m := 2048) (k := 2048) (n := 512) none cb _ t q).trans ?_
  refine Finset.sum_congr rfl fun s _ => ?_
  show cb (ix2 t s) * (FloatOps.sitofp .f32 ((IntOp.cmpi .eq (broadcastTo S2048x512 idxb broadcasts_S2048x1_S2048x512 (ix2 s q))
      (IntOp.addi (Scalar.muli (BitVec.ofNat 32 (i 0).val) (BitVec.ofNat 32 512)) (BitVec.ofNat 32 (0 * 512 + q.val)))).setWidth 32) : Ideal .f32) = _
  rw [tokens_along_lanes, tileOffset_word, Nat.zero_mul, Nat.zero_add, cmpi_eq, sitofp_bit]
  by_cases h : idxb (ix2 s (0 : Fin 1)) = BitVec.ofNat 32 ((i 0).val * 512 + q.val)
  · rw [if_pos h, if_pos h, mul_one]
  · rw [if_neg h, if_neg h, mul_zero]

/-- The same at any index of the tile. -/
theorem stored_columns (i : grid2.Coords) (idxb : Vec Ideal S2048x1 .i32) (cb : Vec Ideal S2048x2048 .bf16) (j : S2048x512.Idx) :
    k2_pay1 (F := Ideal) i idxb cb j
      = ∑ s : Fin 2048, if idxb (ix2 s (0 : Fin 1)) = BitVec.ofNat 32 ((i 0).val * 512 + (j 1).val) then cb (ix2 (j 0) s) else 0 := by
  obtain ⟨t, q, rfl⟩ : ∃ (t : Fin 2048) (q : Fin 512), j = ix2 t q := ⟨j 0, j 1, eq_ix2 j⟩
  exact stored_columns_at i idxb cb t q

/-- A tile of the column sums: where the tile's entry `y` is the array's entry `i`, `n` columns along, and the staged
    scores and tokens are the whole arrays', the tile's sum is `columnSumsByToken` at `i`. -/
theorem columnSums_tile {T W Wb : Nat} (C cb : (⟨2, ![T, T]⟩ : Shape).Idx → EReal) (idx idxb : Fin T → BitVec 32)
    (n : Nat) (y : (⟨2, ![T, Wb]⟩ : Shape).Idx) (i : (⟨2, ![T, W]⟩ : Shape).Idx)
    (h1 : (i 1).val = n + (y 1).val) (hc : ∀ s : Fin T, cb (ix2 (y 0) s) = C (ix2 (i 0) s)) (hidx : ∀ s : Fin T, idxb s = idx s) :
    (∑ s : Fin T, if idxb s = BitVec.ofNat 32 (n + (y 1).val) then cb (ix2 (y 0) s) else 0) = columnSumsByToken C idx i := by
  unfold columnSumsByToken
  rw [h1]
  exact Finset.sum_congr rfl fun s _ => by rw [hc s, hidx s]

/-- The block indices over the 99 points: the scores and the tokens stay, the output moves along the columns. -/
theorem blockIndices2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = t.val ∧ (grid2.coords t 0).val = t.val :=
  (by decide +kernel : ∀ t : Fin grid2.N, _)

/-- The tokens as the region finds them: column 0 of the reshaped index array. -/
abbrev tokensOf (c : Dev nD) : Fin 2048 → BitVec 32 := fun s => V c main_v2 (ix2 s (0 : Fin 1))

/-- What point `t` writes back is tile `t` of the column sums of the region-entry scores by the region-entry tokens. -/
theorem flushed_columns (c : Dev nD) (t : Fin cfg2.N) :
    (dat2 V c).flushed 2 t = ((cfg2.win 2).blk t).view.read (Elt Ideal)
      (columnSumsByToken (T := 2048) (V := 50688) (V c main_v1) (tokensOf V c)) := by
  show (cfg2.win 2).cut (grid2.coords t) ((dat2 V c).after 2 t) = _
  rw [after2_2]
  unfold out2_2
  rw [View.canon_unit_zero offsets_zero2]
  simp only [View.ld_unit_zero (S := S2048x2048) offsets_zero2, View.ld_unit_zero (S := S2048x1) offsets_zero2]
  obtain ⟨e00, e01, e10, e11, e20, e21, eg⟩ := blockIndices2 t
  funext j
  show k2_pay1 (F := Ideal) (grid2.coords t) (iblk2 V c 1 t) (iblk2 V c 0 t) j
    = columnSumsByToken (T := 2048) (V := 50688) (V c main_v1) (tokensOf V c) (((cfg2.win 2).blk t).view.emb j)
  rw [stored_columns]
  refine columnSums_tile (T := 2048) (W := 50688) (Wb := 512) (V c main_v1) (iblk2 V c 0 t) (tokensOf V c)
    (fun s => iblk2 V c 1 t (ix2 s (0 : Fin 1))) ((grid2.coords t 0).val * 512) j _ ?_ (fun s => ?_) (fun s => ?_)
  · show win2_2.index t (1 : Fin 2) * 512 + 1 * (j 1).val = (grid2.coords t 0).val * 512 + (j 1).val; omega
  · show V c main_v1 (((cfg2.win 0).blk t).view.emb (ix2 (j 0) s)) = _
    refine congrArg (V c main_v1) (funext fun b => Fin.ext ?_)
    match b with
    | ⟨0, _⟩ => show win2_0.index t (0 : Fin 2) * 2048 + 1 * (j 0).val = win2_2.index t (0 : Fin 2) * 2048 + 1 * (j 0).val; omega
    | ⟨1, _⟩ => show win2_0.index t (1 : Fin 2) * 2048 + 1 * s.val = s.val; omega
  · show V c main_v2 (((cfg2.win 1).blk t).view.emb (ix2 s (0 : Fin 1))) = V c main_v2 (ix2 s (0 : Fin 1))
    refine congrArg (V c main_v2) (funext fun b => Fin.ext ?_)
    match b with
    | ⟨0, _⟩ => show win2_1.index t (0 : Fin 2) * 2048 + 1 * s.val = s.val; omega
    | ⟨1, _⟩ => show win2_1.index t (1 : Fin 2) * 1 + 1 * 0 = 0; omega

/-- An index of the padded output is in point `t`'s tile iff each coordinate is in the tile's range. -/
theorem mem_tile (t : Fin cfg2.N) (i : S2048x50688.Idx) :
    i ∈ ((cfg2.win 2).blk t).view.set ↔ ∀ a : Fin 2, win2_2.index t a * S2048x512.size a ≤ (i a).val ∧ (i a).val < win2_2.index t a * S2048x512.size a + S2048x512.size a := by
  show i ∈ ((View.whole main_v3).slice (win2_2.rect t)).set ↔ _
  rw [View.set_slice_whole, Rect.mem_set_unit]
  exact Iff.rfl

/-- Column w lies in the tile of point w / 512. -/
theorem cover_columns (i : S2048x50688.Idx) : ∃ t : Fin cfg2.N, (cfg2.win 2).flush t = true ∧ i ∈ ((cfg2.win 2).blk t).view.set := by
  have hi0 : (i 0).val < 2048 := (i 0).isLt
  have hi1 : (i 1).val < 50688 := (i 1).isLt
  refine ⟨⟨(i 1).val / 512, by show (i 1).val / 512 < 99; omega⟩, flush2_2 _, ?_⟩
  rw [mem_tile]
  obtain ⟨e00, e01, e10, e11, e20, e21, eg⟩ := blockIndices2 ⟨(i 1).val / 512, by show (i 1).val / 512 < 99; omega⟩
  intro a
  match a with
  | ⟨0, _⟩ => show win2_2.index _ (0 : Fin 2) * 2048 ≤ (i 0).val ∧ (i 0).val < win2_2.index _ (0 : Fin 2) * 2048 + 2048; rw [e20]; omega
  | ⟨1, _⟩ => show win2_2.index _ (1 : Fin 2) * 512 ≤ (i 1).val ∧ (i 1).val < win2_2.index _ (1 : Fin 2) * 512 + 512; rw [e21]; show (i 1).val / 512 * 512 ≤ _ ∧ _ < (i 1).val / 512 * 512 + 512; omega

/-- AFTER THE REGION the padded output is the column sums of the entry scores by the entry tokens. -/
theorem final_columns (c : Dev nD) : (dat2 V c).arrAt 2 cfg2.N
    = columnSumsByToken (T := 2048) (V := 50688) (V c main_v1) (tokensOf V c) :=
  (dat2 V c).arrAt_eq_of_cover 2 _ (fun t _ => flushed_columns V c t) cover_columns

end Cert.KernelIdeal.Val

end
-- ==== Proof.KernelValue.lean ====
/-
  The idealized kernel program computes `headQK`: the buffer contents at the end of @main, followed back through the
  three regions and the two host stretches between them.

  The result is the first 50257 columns of the padded output of the third region; that output is the column sums, by the
  tokens the third region finds, of the scores it finds; no host operation writes the score array between the second
  and third regions, so those scores are what the second region left: the causal scores of the q and k it found, which
  are what the first region left: x · Wq and x · Wk of the launch contents. The tokens the third region finds are the
  index argument reshaped to a column — entry (s, 0) of the column is entry s of the argument, which no region writes.
  An entry of the padded column sums in a column below 50257 does not depend on the padding: it is the same sum.
-/
import proofs.«422247_j71940702208377_1_alg».proof.Proof.KernelIdealFrame
import proofs.«422247_j71940702208377_1_alg».proof.Proof.Spec
import proofs.«422247_j71940702208377_1_alg».proof.Proof.Region0
import proofs.«422247_j71940702208377_1_alg».proof.Proof.Region1
import proofs.«422247_j71940702208377_1_alg».proof.Proof.Region2
import Idealize.ShloMosaic.Lib.Pipeline.Value
import Idealize.ShloMosaic.Lib.StableHlo.Run

noncomputable section

namespace Cert.KernelIdeal.Val

open Cert.KernelIdeal Cert.KernelIdeal.Gen Cert.KernelIdeal.GenP Idealize.ShloMosaic Idealize.ShloMosaic.TcCoe Idealize.SL.Sem
open Idealize.ShloMosaic.ValueIdx Cert.HeadQK
open Idealize.ShloMosaic.Pipeline (Dat)

open Idealize.ShloMosaic.StableHlo

variable (m : (ℓ : Loc nD τ sig) → Buf (Elt Ideal) ℓ) (ρ : Dev nD → PrngReg)

/-- The result buffer at the end: the slice of the third region's output. -/
theorem result_is_slice (c : Dev nD) :
    W5 m ρ c (Proc.devRef .tc main_v4)
      = extractStridedSlice S2048x50257 ![0, 0] (W4 m ρ c (Proc.devRef .tc main_v3)) slices_S2048x50688_S2048x50257_0_0 := by
  show StableHlo.after hostOps3 (W4 m ρ c) (Proc.devRef .tc main_v4) = _
  after_results

/-- The reshape between the second and third regions does not write the score array. -/
theorem scores_at_entry (c : Dev nD) :
    W3 m ρ c (Proc.devRef .tc main_v1) = W2 m ρ c (Proc.devRef .tc main_v1) := by
  show StableHlo.after hostOps2 (W2 m ρ c) (Proc.devRef .tc main_v1) = _
  after_results

/-- The token column the third region finds is the index argument as the second region left it, reshaped. -/
theorem tokens_at_entry (c : Dev nD) :
    V3 m ρ c main_v2 = shapeCast S2048x1 (V2 m ρ c main_arg1) shapeCasts_S2048_S2048x1 := by
  show StableHlo.after hostOps2 (W2 m ρ c) (Proc.devRef .tc main_v2) = _
  after_results
  rfl

/-- No region writes the index argument: at the third region's entry it is as launched. -/
theorem index_arg_kept (c : Dev nD) : V2 m ρ c main_arg1 = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

/-- Token s at the third region's entry is entry s of the launched index argument. -/
theorem token_at_entry (c : Dev nD) (s : Fin 2048) :
    tokensOf (V3 m ρ) c s = m ((c : Thread nD τ).loc main_arg1) (ix1 s) := by
  show V3 m ρ c main_v2 (ix2 s (0 : Fin 1)) = _
  rw [tokens_at_entry, index_arg_kept]
  refine shapeCast_apply _ shapeCasts_S2048_S2048x1 (ix2 s (0 : Fin 1)) (ix1 s) ?_
  rw [Shape.rowMajor_val_one, Shape.rowMajor_val_two]
  show s.val = s.val * 1 + 0
  omega

/-- The q and k arrays the second region finds are the projections of the launch contents. -/
theorem q_at_entry (c : Dev nD) : V1 m ρ c main_v0_0
    = rowsTimesCols (M := 2048) (K := 1024) (N := 256) (m ((c : Thread nD τ).loc main_arg0)) (m ((c : Thread nD τ).loc main_arg2)) :=
  (W1_arr m ρ c 3).trans (final_q (V0 m ρ) c)

theorem k_at_entry (c : Dev nD) : V1 m ρ c main_v0_1
    = rowsTimesCols (M := 2048) (K := 1024) (N := 256) (m ((c : Thread nD τ).loc main_arg0)) (m ((c : Thread nD τ).loc main_arg3)) :=
  (W1_arr m ρ c 4).trans (final_k (V0 m ρ) c)

/-- The score array the third region finds is the causal scores of those projections. -/
theorem scores_value (c : Dev nD) : V3 m ρ c main_v1
    = causalScores (T := 2048) (H := 256)
        (rowsTimesCols (M := 2048) (K := 1024) (N := 256) (m ((c : Thread nD τ).loc main_arg0)) (m ((c : Thread nD τ).loc main_arg2)))
        (rowsTimesCols (M := 2048) (K := 1024) (N := 256) (m ((c : Thread nD τ).loc main_arg0)) (m ((c : Thread nD τ).loc main_arg3))) := by
  refine (scores_at_entry m ρ c).trans ?_
  refine ((W2_arr m ρ c 2).trans (final_scores (V1 m ρ) c)).trans ?_
  rw [q_at_entry, k_at_entry]

/-- The padded output after the third region. -/
theorem padded_value (c : Dev nD) : W4 m ρ c (Proc.devRef .tc main_v3)
    = columnSumsByToken (T := 2048) (V := 50688) (V3 m ρ c main_v1) (tokensOf (V3 m ρ) c) :=
  (W4_arr m ρ c 2).trans (final_columns (V3 m ρ) c)

/-- THE KERNEL'S RESULT: `headQK` of the launch contents of the arguments. -/
theorem result_eq (c : Dev nD) :
    W5 m ρ c (Proc.devRef .tc main_v4)
      = headQK (m ((c : Thread nD τ).loc main_arg0)) (m ((c : Thread nD τ).loc main_arg2)) (m ((c : Thread nD τ).loc main_arg3))
          (fun s => m ((c : Thread nD τ).loc main_arg1) (ix1 s)) := by
  have htok : tokensOf (V3 m ρ) c = fun s => m ((c : Thread nD τ).loc main_arg1) (ix1 s) :=
    funext (token_at_entry m ρ c)
  rw [result_is_slice, padded_value, scores_value, htok]
  funext j
  obtain ⟨t, v, rfl⟩ : ∃ (t : Fin 2048) (v : Fin 50257), j = ix2 t v := ⟨j 0, j 1, eq_ix2 j⟩
  have hv : v.val < 50257 := v.isLt
  exact extractStridedSlice_apply ![0, 0] _ slices_S2048x50688_S2048x50257_0_0 (ix2 t v)
    (ix2 t (⟨v.val, by omega⟩ : Fin 50688)) (fun a => match a with
      | ⟨0, _⟩ => by show t.val = 0 + t.val; omega
      | ⟨1, _⟩ => by show v.val = 0 + v.val; omega)

end Cert.KernelIdeal.Val

end
-- ==== Proof.ScatterRead.lean ====
/-
  The host's accumulating scatter of rows, read at one entry, at the ideal values.

  The operand is a V × T array (here V = 50257, T = 2048), the indices a T × 1 column of 32-bit words, the updates a
  T × T array: update row `s` is added, entry by entry, into the operand row that the word `idx[s, 0]`, read signed,
  names, and is dropped when that number is not a row of the operand. So entry (v, t) of the result is the operand's
  entry plus the sum, over the update rows `s` whose word is `v`, of `upd[s, t]`.

  The dimension numbers are those of `segment_sum`: the update's axis 1 is the window axis and goes to operand axis 1,
  operand axis 0 is the inserted one and takes the start index, whose one component is read at column 0 of the indices.
-/
import Idealize.ShloMosaic.PureOps.Ideal
import Idealize.ShloMosaic.Lib.ValueIdx

noncomputable section

namespace Cert.HeadQK

open Idealize.ShloMosaic Idealize.ShloMosaic.ValueIdx

abbrev SOperand : Shape := ⟨2, ![50257, 2048]⟩
abbrev SIndices : Shape := ⟨2, ![2048, 1]⟩
abbrev SUpdates : Shape := ⟨2, ![2048, 2048]⟩

/-- The dimension numbers of the row scatter, over any witness of their well-formedness. -/
def rowScatter (wf : ScatterDims.WF SOperand SIndices SUpdates [1] [0] [0] 1) : ScatterDims SOperand SIndices SUpdates where
  updateWindowDims := [1]
  insertedWindowDims := [0]
  scatterDimsToOperandDims := [0]
  indexVectorDim := 1
  wf := wf

variable (wf : ScatterDims.WF SOperand SIndices SUpdates [1] [0] [0] 1)

/-- Update (s, t) reads its start index at row `s`, column 0, of the indices. -/
theorem rowScatter_siIdx (s t : Fin 2048) (c : Fin (rowScatter wf).scatterDimsToOperandDims.length) :
    (rowScatter wf).siIdx (ix2 s t) c = ix2 s (0 : Fin 1) := by
  funext b
  match b with
  | ⟨0, _⟩ => rfl
  | ⟨1, _⟩ => apply Fin.ext; have := c.isLt; simp [rowScatter] at this; simp [ScatterDims.siIdx, rowScatter, this]

/-- On the operand's row axis the window starts at the index word read signed … -/
theorem rowScatter_start0 (s t : Fin 2048) (idx : IVec SIndices 32) :
    (rowScatter wf).start (ix2 s t) idx 0 = (idx (ix2 s (0 : Fin 1))).toInt := by
  unfold ScatterDims.start
  rw [dif_pos (by decide +revert)]
  rw [rowScatter_siIdx]

/-- … and on the column axis at 0. -/
theorem rowScatter_start1 (s t : Fin 2048) (idx : IVec SIndices 32) : (rowScatter wf).start (ix2 s t) idx 1 = 0 := by
  unfold ScatterDims.start
  rw [dif_neg (by decide +revert)]

/-- The row axis is inserted: no window coordinate on it. -/
theorem rowScatter_window0 (s t : Fin 2048) : (rowScatter wf).window (ix2 s t) 0 = 0 := by
  unfold ScatterDims.window
  rw [dif_neg (by decide +revert)]

/-- The column axis carries the update's column. -/
theorem rowScatter_window1 (s t : Fin 2048) : (rowScatter wf).window (ix2 s t) 1 = t.val := by
  unfold ScatterDims.window
  rw [dif_pos (by decide +revert)]
  rfl

/-- Update (s, t) lands on entry (v, t0) exactly when row `s`'s word, read signed, is `v` and `t` is `t0`. -/
theorem rowScatter_resultIdx?_eq_some_iff (s t : Fin 2048) (idx : IVec SIndices 32) (v : Fin 50257) (t0 : Fin 2048) :
    (rowScatter wf).resultIdx? (ix2 s t) idx = some (ix2 v t0)
      ↔ (idx (ix2 s (0 : Fin 1))).toInt = (v.val : Int) ∧ t = t0 := by
  have hv : v.val < 50257 := v.isLt
  have ht0 : t0.val < 2048 := t0.isLt
  have ht : t.val < 2048 := t.isLt
  unfold ScatterDims.resultIdx?
  split
  · rename_i h
    have h0 := h 0
    have h1 := h 1
    rw [rowScatter_start0, rowScatter_window0] at h0
    rw [rowScatter_start1, rowScatter_window1] at h1
    rw [Option.some_inj]
    constructor
    · intro e
      have e0 : ((rowScatter wf).start (ix2 s t) idx 0 + ((rowScatter wf).window (ix2 s t) 0 : Nat)).toNat = v.val :=
        congrArg (fun f => (f 0).val) e
      have e1 : ((rowScatter wf).start (ix2 s t) idx 1 + ((rowScatter wf).window (ix2 s t) 1 : Nat)).toNat = t0.val :=
        congrArg (fun f => (f 1).val) e
      rw [rowScatter_start0, rowScatter_window0] at e0
      rw [rowScatter_start1, rowScatter_window1] at e1
      exact ⟨by omega, Fin.ext (by omega)⟩
    · rintro ⟨e0, e1⟩
      funext a
      apply Fin.ext
      match a with
      | ⟨0, _⟩ =>
        show ((rowScatter wf).start (ix2 s t) idx 0 + ((rowScatter wf).window (ix2 s t) 0 : Nat)).toNat = v.val
        rw [rowScatter_start0, rowScatter_window0]; omega
      | ⟨1, _⟩ =>
        show ((rowScatter wf).start (ix2 s t) idx 1 + ((rowScatter wf).window (ix2 s t) 1 : Nat)).toNat = t0.val
        rw [rowScatter_start1, rowScatter_window1, e1]; omega
  · rename_i h
    constructor
    · intro e; cases e
    · rintro ⟨e0, e1⟩
      exfalso; apply h
      intro a
      match a with
      | ⟨0, _⟩ =>
        show 0 ≤ (rowScatter wf).start (ix2 s t) idx 0 + ((rowScatter wf).window (ix2 s t) 0 : Nat)
          ∧ (rowScatter wf).start (ix2 s t) idx 0 + ((rowScatter wf).window (ix2 s t) 0 : Nat) < ((50257 : Nat) : Int)
        rw [rowScatter_start0, rowScatter_window0]; omega
      | ⟨1, _⟩ =>
        show 0 ≤ (rowScatter wf).start (ix2 s t) idx 1 + ((rowScatter wf).window (ix2 s t) 1 : Nat)
          ∧ (rowScatter wf).start (ix2 s t) idx 1 + ((rowScatter wf).window (ix2 s t) 1 : Nat) < ((2048 : Nat) : Int)
        rw [rowScatter_start1, rowScatter_window1]; omega

/-- THE SCATTER READ AT AN ENTRY: the operand's entry plus the sum over the update rows whose word names the entry's
    row. The double sum over the updates' entries collapses on the column: only column `t0` lands on column `t0`. -/
theorem hostScatterAdd_rowScatter_apply (x : SOperand.Idx → EReal) (idx : IVec SIndices 32) (upd : SUpdates.Idx → EReal)
    (v : Fin 50257) (t0 : Fin 2048) :
    Ideal.hostScatterAdd (rowScatter wf) x idx upd (ix2 v t0)
      = x (ix2 v t0) + ∑ s : Fin 2048, if (idx (ix2 s (0 : Fin 1))).toInt = (v.val : Int) then upd (ix2 s t0) else 0 := by
  unfold Ideal.hostScatterAdd
  congr 1
  rw [Finset.sum_filter, sum_idx2]
  refine Finset.sum_congr rfl fun s _ => ?_
  have hstep : ∀ t : Fin 2048, (if (rowScatter wf).resultIdx? (ix2 s t) idx = some (ix2 v t0) then upd (ix2 s t) else 0)
      = if t = t0 then (if (idx (ix2 s (0 : Fin 1))).toInt = (v.val : Int) then upd (ix2 s t) else 0) else 0 := by
    intro t
    by_cases h1 : t = t0
    · by_cases h2 : (idx (ix2 s (0 : Fin 1))).toInt = (v.val : Int)
      · rw [if_pos ((rowScatter_resultIdx?_eq_some_iff wf s t idx v t0).2 ⟨h2, h1⟩), if_pos h1, if_pos h2]
      · rw [if_neg (fun h => h2 ((rowScatter_resultIdx?_eq_some_iff wf s t idx v t0).1 h).1), if_pos h1, if_neg h2]
    · rw [if_neg (fun h => h1 ((rowScatter_resultIdx?_eq_some_iff wf s t idx v t0).1 h).2), if_neg h1]
  rw [Finset.sum_congr rfl fun t _ => hstep t, Finset.sum_ite_eq' Finset.univ t0, if_pos (Finset.mem_univ _)]

end Cert.HeadQK

end
-- ==== Proof.RefValue.lean ====
/-
  The reference program computes `headQK`: its result array, read entry by entry at the ideal values, is the
  specification's function of its four arguments.

  Stage by stage. The two projections are plain matrix products, entry (r, c) the sum over the contracted coordinate.
  The score matrix is the product of q with the transpose of k, so entry (r, s) sums q[r, h] · k[s, h] over h; it is
  multiplied by the word of 2⁻⁸ and kept where the lower-triangle mask holds. The mask compares the row number with the
  column number as signed 32-bit words; both are below 2048, so it is the comparison s ≤ r of the numbers. The scatter
  adds row s of the transposed scores into the result row that token `idx[s]` names — entry (v, t) collects c[t, s] over
  the s whose token, read signed, is v, which for v < 50257 says the token is the word of v — and the final transpose
  turns that into entry (t, v).
-/
import proofs.«422247_j71940702208377_1_alg».proof.Proof.Gen.ReferenceIdeal.Read
import proofs.«422247_j71940702208377_1_alg».proof.Proof.Spec
import proofs.«422247_j71940702208377_1_alg».proof.Proof.Words
import proofs.«422247_j71940702208377_1_alg».proof.Proof.ScatterRead
import Idealize.ShloMosaic.Lib.StackMember
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.HeadQK

/-- The token of position `s`: the entry of the one-axis index array. -/
abbrev tokens (x1 : (⟨S2048, .i32⟩ : BufTy).Contents (Elt Ideal)) : Fin 2048 → BitVec 32 := fun s => x1 (ix1 s)

/-- q = x · Wq, entry by entry. -/
theorem q_eq (x0 : (⟨S2048x1024, .f32⟩ : BufTy).Contents (Elt Ideal)) (x2 : (⟨S1024x256, .f32⟩ : BufTy).Contents (Elt Ideal)) :
    val_main_v0 (F := Ideal) x0 x2 = rowsTimesCols (M := 2048) (K := 1024) (N := 256) x0 x2 := by
  funext j
  obtain ⟨r, c, rfl⟩ : ∃ (r : Fin 2048) (c : Fin 256), j = ix2 r c := ⟨j 0, j 1, eq_ix2 j⟩
  exact StackMember.dotGeneral_plain_apply none x0 x2 r c

/-- k = x · Wk, entry by entry. -/
theorem k_eq (x0 : (⟨S2048x1024, .f32⟩ : BufTy).Contents (Elt Ideal)) (x3 : (⟨S1024x256, .f32⟩ : BufTy).Contents (Elt Ideal)) :
    val_main_v1 (F := Ideal) x0 x3 = rowsTimesCols (M := 2048) (K := 1024) (N := 256) x0 x3 := by
  funext j
  obtain ⟨r, c, rfl⟩ : ∃ (r : Fin 2048) (c : Fin 256), j = ix2 r c := ⟨j 0, j 1, eq_ix2 j⟩
  exact StackMember.dotGeneral_plain_apply none x0 x3 r c

/-- The unmasked score (r, s): q's row r against k's row s (the product with the transpose of k). -/
theorem qkT_apply (x0 : (⟨S2048x1024, .f32⟩ : BufTy).Contents (Elt Ideal)) (x2 x3 : (⟨S1024x256, .f32⟩ : BufTy).Contents (Elt Ideal))
    (r s : Fin 2048) :
    val_main_v3 (F := Ideal) x0 x2 x3 (ix2 r s)
      = ∑ h : Fin 256, rowsTimesCols (M := 2048) (K := 1024) (N := 256) x0 x2 (ix2 r h)
          * rowsTimesCols (M := 2048) (K := 1024) (N := 256) x0 x3 (ix2 s h) := by
  unfold val_main_v3
  refine (StackMember.dotGeneral_plain_apply none (val_main_v0 (F := Ideal) x0 x2) (val_main_v2 (F := Ideal) x0 x3) r s).trans ?_
  refine Finset.sum_congr rfl fun h _ => ?_
  have e2 : idx_main_v2 (ix2 h s) = ix2 s h := funext fun a => match a with
    | ⟨0, _⟩ => rfl
    | ⟨1, _⟩ => rfl
  rw [val_main_v2_apply, e2, q_eq, k_eq]

/-- The masked, scaled scores are `causalScores` of the two projections. -/
theorem scores_eq (x0 : (⟨S2048x1024, .f32⟩ : BufTy).Contents (Elt Ideal)) (x2 x3 : (⟨S1024x256, .f32⟩ : BufTy).Contents (Elt Ideal)) :
    val_main_v8 (F := Ideal) x0 x2 x3
      = causalScores (T := 2048) (H := 256) (rowsTimesCols (M := 2048) (K := 1024) (N := 256) x0 x2)
          (rowsTimesCols (M := 2048) (K := 1024) (N := 256) x0 x3) := by
  funext j
  obtain ⟨r, s, rfl⟩ : ∃ (r s : Fin 2048), j = ix2 r s := ⟨j 0, j 1, eq_ix2 j⟩
  have hr : r.val < 2048 := r.isLt
  have hs : s.val < 2048 := s.isLt
  rw [val_main_v8_apply, val_main_v7_apply, val_main_call0_v4_apply, val_main_call0_v2_apply, val_main_call0_v0_apply,
    val_main_call0_v1_apply, val_main_call0_c_apply, val_main_call0_v3_apply, val_main_v6_apply, val_main_c_apply,
    val_main_call0_v5_apply, val_main_call0_c_0_apply, val_main_call1_v1_apply, val_main_call1_v0_apply, val_main_cst_0_apply,
    val_main_v5_apply, val_main_v4_apply, val_main_cst_apply]
  have hadd : IntOp.addi (BitVec.ofNat 32 r.val) 0#32 = BitVec.ofNat 32 r.val := BitVec.add_zero _
  show Scalar.select (Scalar.select (IntOp.cmpi .sge (IntOp.addi (BitVec.ofNat 32 r.val) 0#32) (BitVec.ofNat 32 s.val)) 1#1 0#1)
      (val_main_v3 (F := Ideal) x0 x2 x3 (ix2 r s) * scale) (Ideal.ofBits .f32 0x00000000#32)
    = if s.val ≤ r.val then (∑ h : Fin 256, rowsTimesCols (M := 2048) (K := 1024) (N := 256) x0 x2 (ix2 r h)
          * rowsTimesCols (M := 2048) (K := 1024) (N := 256) x0 x3 (ix2 s h)) * scale else 0
  rw [hadd, cmpi_sge_ofNat r.val s.val (by omega) (by omega)]
  by_cases h : s.val ≤ r.val
  · rw [if_pos h, if_pos h, select_one, select_one, qkT_apply]
  · rw [if_neg h, if_neg h, select_zero, select_zero, Ideal.ofBits_zero_f32]

/-- THE REFERENCE'S RESULT: `headQK` of the arguments, the tokens read off the index array. -/
theorem result_eq (x0 : (⟨S2048x1024, .f32⟩ : BufTy).Contents (Elt Ideal)) (x1 : (⟨S2048, .i32⟩ : BufTy).Contents (Elt Ideal))
    (x2 x3 : (⟨S1024x256, .f32⟩ : BufTy).Contents (Elt Ideal)) :
    val_main_v13 (F := Ideal) x0 x1 x2 x3 = headQK x0 x2 x3 (tokens x1) := by
  funext j
  obtain ⟨t, v, rfl⟩ : ∃ (t : Fin 2048) (v : Fin 50257), j = ix2 t v := ⟨j 0, j 1, eq_ix2 j⟩
  have hv : v.val < 50257 := v.isLt
  have e13 : idx_main_v13 (ix2 t v) = ix2 v t := funext fun a => match a with
    | ⟨0, _⟩ => rfl
    | ⟨1, _⟩ => rfl
  rw [val_main_v13_apply, e13]
  unfold val_main_v12
  show Ideal.hostScatterAdd (rowScatter _) (val_main_v10 (F := Ideal)) (val_main_v11 (F := Ideal) x1)
      (val_main_v9 (F := Ideal) x0 x2 x3) (ix2 v t) = _
  rw [hostScatterAdd_rowScatter_apply, val_main_v10_apply, val_main_cst_1_apply]
  show Ideal.ofBits .f32 0x00000000#32 + _ = ∑ s : Fin 2048, if tokens x1 s = BitVec.ofNat 32 v.val then
      causalScores (T := 2048) (H := 256) (rowsTimesCols (M := 2048) (K := 1024) (N := 256) x0 x2)
        (rowsTimesCols (M := 2048) (K := 1024) (N := 256) x0 x3) (ix2 t s) else 0
  rw [Ideal.ofBits_zero_f32, zero_add]
  refine Finset.sum_congr rfl fun s _ => ?_
  have e11 : idx_main_v11 (ix2 s (0 : Fin 1)) = ix1 s := funext fun a => match a with
    | ⟨0, _⟩ => rfl
  have e9 : idx_main_v9 (ix2 s t) = ix2 t s := funext fun a => match a with
    | ⟨0, _⟩ => rfl
    | ⟨1, _⟩ => rfl
  rw [val_main_v11_apply, e11, val_main_v9_apply, e9, scores_eq]
  exact if_congr (toInt_eq_natCast_iff _ v.val (by omega)) rfl rfl

end Cert.ReferenceIdeal.RefValue

end
-- ==== Proof.lean ====
/-
  A kernel in three parts against its reference, equal over the extended reals.

  Both programs take x (2048 × 1024), a list idx of 2048 tokens (32-bit words) and two 1024 × 256 weights, and both
  compute
      q = x · Wq,   k = x · Wk,
      c[r, s] = (Σ_h q[r, h] · k[s, h]) · 2⁻⁸ for s ≤ r, and 0 for s > r,
      out[t, v] = the sum of the c[t, s] over the positions s whose token is v,        v = 0 … 50256
  (`Cert.HeadQK.headQK`, Proof/Spec.lean). The reference spells the last step as a scatter that adds column s of c into
  output column idx[s] and drops a token that names no column (Proof/ScatterRead.lean, Proof/RefValue.lean). The kernel
  spells it as a product of c with a 0/1 matrix, built tile by tile over 50688 = 99 · 512 columns and then cut back to
  50257 (Proof/Region2.lean); its first two parts are the projections, four row blocks at a time (Proof/Region0.lean),
  and the masked, scaled scores, sixteen tiles at a time (Proof/Region1.lean); Proof/KernelValue.lean follows the buffers
  from one part to the next. A product with 1 keeps an extended real and a product with 0 is 0, and finite sums of
  extended reals may be taken in any order and grouping, so the two spellings agree at every input: the precondition
  (finite inputs) is not used.

  The three frame conjuncts: the two kernel programs' by their frame certificates (Proof/KernelFrame.lean,
  Proof/KernelIdealFrame.lean), the reference's by its run with the result dropped. The idealization rewrote nothing, so
  its conjunct is `True`.
-/
import proofs.«422247_j71940702208377_1_alg».proof.Defs
import proofs.«422247_j71940702208377_1_alg».proof.Proof.Gen.Kernel
import proofs.«422247_j71940702208377_1_alg».proof.Proof.Gen.Kernel.Skeleton
import proofs.«422247_j71940702208377_1_alg».proof.Proof.Gen.Kernel.Launch
import proofs.«422247_j71940702208377_1_alg».proof.Proof.Gen.Kernel.Points
import proofs.«422247_j71940702208377_1_alg».proof.Proof.KernelFrame
import proofs.«422247_j71940702208377_1_alg».proof.Proof.Gen.KernelIdeal
import proofs.«422247_j71940702208377_1_alg».proof.Proof.Gen.KernelIdeal.Skeleton
import proofs.«422247_j71940702208377_1_alg».proof.Proof.Gen.KernelIdeal.Launch
import proofs.«422247_j71940702208377_1_alg».proof.Proof.Gen.KernelIdeal.Points
import proofs.«422247_j71940702208377_1_alg».proof.Proof.KernelIdealFrame
import proofs.«422247_j71940702208377_1_alg».proof.Proof.Gen.ReferenceIdeal
import proofs.«422247_j71940702208377_1_alg».proof.Proof.Gen.ReferenceIdeal.Run
import proofs.«422247_j71940702208377_1_alg».proof.Proof.Gen.ReferenceIdeal.Read
import proofs.«422247_j71940702208377_1_alg».proof.Proof.Gen.Pre_finite_inputs
import proofs.«422247_j71940702208377_1_alg».proof.Proof.KernelValue
import proofs.«422247_j71940702208377_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.HeadQK

/-- The printed kernel runs, faults nowhere, and leaves its arguments as launched. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with `headQK` of them in the result buffer. -/
theorem algebraic : Cert.algebraic_KernelIdeal_ReferenceIdeal := by
  intro m ρ m' ρ' _ hagree
  refine ⟨fun c => headQK (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (fun s => m ((c.tc : Thread Cert.KernelIdeal.nD Cert.KernelIdeal.τ).loc Cert.KernelIdeal.main_arg1) (ix1 s)), ?_, ?_⟩
  · exact (θ_run Cert.KernelIdeal.defs _ _).mono
      (fun r h c => ⟨(h c).1.trans (Cert.KernelIdeal.Val.result_eq m ρ c), (h c).2⟩)
      (Cert.KernelIdeal.GenP.run_result m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v13_eq, Cert.ReferenceIdeal.RefValue.result_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
